-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S128x64 : Shape := ⟨2, ![128, 64]⟩
abbrev S128 : Shape := ⟨1, ![128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg2 : IVec S1600000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 4294867296#32
  let main_v19 : IVec S1600000 32 := broadcastInDim S1600000 ![] bcast_S_S1600000 main_c_6
  let main_v20 : IVec S1600000 1 := cmpi .sge main_arg2 main_v19
  let main_c_7 : IVec S_ 32 := constantI S_ 32 100000#32
  let main_v21 : IVec S1600000 32 := broadcastInDim S1600000 ![] bcast_S_S1600000 main_c_7
  let main_v22 : IVec S1600000 1 := cmpi .slt main_arg2 main_v21
  let main_v23 : IVec S1600000 1 := andi main_v20 main_v22
  let main_c_8 : IVec S_ 1 := constantI S_ 1 1#1
  let main_v24 : IVec S_ 1 := (fun x v => Host.reduce IntOp.andi x v reducesTo_S1600000_S_d0 h_S_) main_v23 main_c_8
  let main_v25 : IVec S_ 1 := andi main_v18 main_v24
  main_v25

def fn {F : FTy → Type} [FloatOps F] (main_arg0 : FVec F S100000x64 .f32) (main_arg1 : FVec F S1600000 .f32) (main_arg2 : IVec S1600000 32) (main_arg3 : IVec S1600000 32) (main_arg4 : FVec F S128x64 .f32) (main_arg5 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_v13 main_v16
-- ==== Kernel.lean ====
abbrev S100000x64 : Shape := ⟨2, ![100000, 64]⟩
abbrev S1600000 : Shape := ⟨1, ![1600000]⟩
abbrev S128x64 : Shape := ⟨2, ![128, 64]⟩
abbrev S128 : Shape := ⟨1, ![128]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S64x128 : Shape := ⟨2, ![64, 128]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩

abbrev nBuf : Space → Nat
  | .hbm => 36
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S1600000, .f32⟩
  | .hbm, ⟨2, _⟩ => ⟨S1600000, .i32⟩
  | .hbm, ⟨3, _⟩ => ⟨S1600000, .i32⟩
  | .hbm, ⟨4, _⟩ => ⟨S128x64, .f32⟩
  | .hbm, ⟨5, _⟩ => ⟨S128, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1, .i32⟩
  | .hbm, ⟨15, _⟩ => ⟨S_, .i32⟩
  | .hbm, ⟨16, _⟩ => ⟨S1600000x1, .i32⟩
  | .hbm, ⟨17, _⟩ => ⟨S1600000x1, .i1⟩
  | .hbm, ⟨18, _⟩ => ⟨S1x1, .i32⟩
  | .hbm, ⟨19, _⟩ => ⟨S1600000x1, .i32⟩
  | .hbm, ⟨20, _⟩ => ⟨S1600000x1, .i1⟩
  | .hbm, ⟨21, _⟩ => ⟨S1600000x1, .i1⟩
  | .hbm, ⟨22, _⟩ => ⟨S_, .i1⟩
  | .hbm, ⟨23, _⟩ => ⟨S1600000, .i1⟩
  | .hbm, ⟨24, _⟩ => ⟨S1600000x64, .f32⟩
  | .hbm, ⟨25, _⟩ => ⟨S1600000x64, .i1⟩
  | .hbm, ⟨26, _⟩ => ⟨S_, .f32⟩
  | .hbm, ⟨27, _⟩ => ⟨S1600000x64, .f32⟩
  | .hbm, ⟨28, _⟩ => ⟨S1600000x64, .f32⟩
  | .hbm, ⟨29, _⟩ => ⟨S_, .f32⟩
  | .hbm, ⟨30, _⟩ => ⟨S100000x64, .f32⟩
  | .hbm, ⟨31, _⟩ => ⟨S1600000x1, .i32⟩
  | .hbm, ⟨32, _⟩ => ⟨S100000x64, .f32⟩
  | .hbm, ⟨33, _⟩ => ⟨S64x128, .f32⟩
  | .hbm, ⟨34, _⟩ => ⟨S1x128, .f32⟩
  | .hbm, ⟨35, _⟩ => ⟨S100000x128, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_cst : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  transposes_S128x64_S64x128_1_0 : S128x64.Transposes [1, 0] S64x128
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S128x64 : Shape := ⟨2, ![128, 64]⟩
abbrev S128 : Shape := ⟨1, ![128]⟩
abbrev S_ : Shape := ⟨0, ![]⟩
abbrev S1600000x1 : Shape := ⟨2, ![1600000, 1]⟩
abbrev S1600000x64 : Shape := ⟨2, ![1600000, 64]⟩
abbrev S64x128 : Shape := ⟨2, ![64, 128]⟩
abbrev S100000x128 : Shape := ⟨2, ![100000, 128]⟩
abbrev S1x128 : Shape := ⟨2, ![1, 128]⟩

abbrev nBuf : Space → Nat
  | .hbm => 38
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .f32⟩
  | .hbm, ⟨2, _⟩ => ⟨S1600000, .i32⟩
  | .hbm, ⟨3, _⟩ => ⟨S1600000, .i32⟩
  | .hbm, ⟨4, _⟩ => ⟨S128x64, .f32⟩
  | .hbm, ⟨5, _⟩ => ⟨S128, .f32⟩
  | .hbm, ⟨6, _⟩ => ⟨S1600000, .f32⟩
  | .hbm, ⟨7, _⟩ => ⟨S_, .f32⟩
  | .hbm, ⟨8, _⟩ => ⟨S1600000, .f32⟩
  | .hbm, ⟨9, _⟩ => ⟨S1600000, .f32⟩
  | .hbm, ⟨10, _⟩ => ⟨S1600000, .f32⟩
  | .hbm, ⟨11, _⟩ => ⟨S1600000x1, .f32⟩
  | .hbm, ⟨12, _⟩ => ⟨S_, .f32⟩
  | .hbm, ⟨13, _⟩ => ⟨S1600000x1, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S1600000x64, .f32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S_, .f32⟩
  | .hbm, ⟨30, _⟩ => ⟨S100000x64, .f32⟩
  | .hbm, ⟨31, _⟩ => ⟨S100000x64, .f32⟩
  | .hbm, ⟨32, _⟩ => ⟨S100000x64, .f32⟩
  | .hbm, ⟨33, _⟩ => ⟨S64x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf

class Facts : Prop extends Facts₀ where

variable [Facts]
-- ==== Proof.Domain.lean ====
/-
  What the precondition says of the source words.

  The precondition is a conjunction of five `all`s: four say that a float input is finite, the fifth that every source
  word is a valid row index, `-100000 ≤ src[e]` and `src[e] < 100000` as signed words. Only the fifth is used: an `all`
  that is `1` is `1` at every element, and a signed comparison that is `1` is the order of the words read as integers
  (the word `4294867296` read signed is `-100000`).
-/
import proofs.«423117_j72344429133898_1_alg».proof.Pre_finite_inputs
import proofs.«423117_j72344429133898_1_alg».proof.Proof.Gen.Pre_finite_inputs
import Idealize.ShloMosaic.Lib.ReduceAll
import Idealize.ShloMosaic.Lib.ValueIdx
import Idealize.ShloMosaic.PureOps.Ideal

namespace Cert.Proof.Domain

open Idealize.ShloMosaic
open Cert.Pre_finite_inputs

/-- A rank-0 array has one index. -/
instance : Subsingleton S_.Idx := ⟨fun a b => funext fun d => d.elim0⟩

/-- Under the precondition every source word is a valid row index, negative ones counted from the end. -/
theorem src_range (a0 : FVec Ideal S100000x64 .f32) (a1 : FVec Ideal S1600000 .f32) (a2 a3 : IVec S1600000 32)
    (a4 : FVec Ideal S128x64 .f32) (a5 : FVec Ideal S128 .f32)
    (h : Cert.Pre_finite_inputs.fn (F := Ideal) a0 a1 a2 a3 a4 a5 = fun _ => 1#1) (e : S1600000.Idx) :
    -(100000 : Int) ≤ (a2 e).toInt ∧ (a2 e).toInt < 100000 := by
  have h0 := congrFun h ValueIdx.ix0
  dsimp only [Cert.Pre_finite_inputs.fn, Cert.Pre_finite_inputs.fn_part1] at h0
  have h1 := (IntOp.andi_eq_one.1 h0).2
  have h2 := Host.reduce_andi_all _ _ _ _ _ h1 e
  obtain ⟨hge, hlt⟩ := IntOp.andi_eq_one.1 h2
  have hge' := IntOp.cmpi_sge.1 hge
  have hlt' := IntOp.cmpi_slt.1 hlt
  change (4294867296#32 : BitVec 32).toInt ≤ _ at hge'
  change _ < (100000#32 : BitVec 32).toInt at hlt'
  have e1 : (4294867296#32 : BitVec 32).toInt = -100000 := by decide
  have e2 : (100000#32 : BitVec 32).toInt = 100000 := by decide
  rw [e1] at hge'; rw [e2] at hlt'
  exact ⟨hge', hlt'⟩

end Cert.Proof.Domain
-- ==== Proof.KernelBlock.lean ====
/-
  One grid point of the fused kernel, read at an entry.

  The body adds the two [5000, 64] blocks it loads (a block of feature rows and the same rows of the aggregate), multiplies the
  sum by the [64, 128] transposed weight into a zero accumulator, and adds the one-row bias to every row. Over the extended
  reals the changes of float format are the identity, so entry `(r, j)` of what it stores is
  `∑ₖ (x₀[r,k] + x₁[r,k]) · x₂[k,j] + x₃[0,j]`: `block_apply`. The matrix product's contraction index is its one coordinate
  `k < 64` (`matmul_block`); the bias row broadcast down the rows reads the row (`bias_row`).
-/
import proofs.«423117_j72344429133898_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.Proof.KernelBlock

open Cert.KernelIdeal Cert.KernelIdeal.Gen
open Idealize.ShloMosaic Idealize.ShloMosaic.ValueIdx

/-- The left operand of the block's product is read at the output's row … -/
theorem lhs_row (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
/-- … and the contraction coordinate, -/
theorem lhs_contr (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
/-- the right operand at the contraction coordinate … -/
theorem rhs_contr (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
/-- … and the output's column. -/
theorem rhs_col (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The block's matrix product into a zero accumulator, at `(r, j)`: the sum over `k < 64` of row `r` of the left
    operand times column `j` of the right. -/
theorem matmul_block (a : FVec Ideal S5000x64 .bf16) (b : FVec Ideal S64x128 .bf16) (r : Fin 5000) (j : Fin 128) :
    matmul dot_S5000x64_S64x128_S5000x128_1_0_0_1_n_n none a b (constant S5000x128 .f32 0x00000000#32) (ix2 r j)
      = ∑ k : Fin 64, a (ix2 r k) * b (ix2 k j) := by
  show FloatOps.matmul dot_S5000x64_S64x128_S5000x128_1_0_0_1_n_n none a b (constant S5000x128 .f32 0x00000000#32) (ix2 r j) = _
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 r j) ((contrEquiv1 dot_S5000x64_S64x128_S5000x128_1_0_0_1_n_n 64 rfl rfl).symm k) = ix2 r k := funext fun a => Fin.ext (by
    match a with
    | ⟨0, _⟩ => exact lhs_row _ _
    | ⟨1, _⟩ => exact (lhs_contr _ _).trans hk)
  have er : dot_S5000x64_S64x128_S5000x128_1_0_0_1_n_n.rhsIdx (ix2 r j) ((contrEquiv1 dot_S5000x64_S64x128_S5000x128_1_0_0_1_n_n 64 rfl rfl).symm k) = ix2 k j := funext fun a => Fin.ext (by
    match a with
    | ⟨0, _⟩ => exact (rhs_contr _ _).trans hk
    | ⟨1, _⟩ => exact rhs_col _ _)
  rw [el, er]

/-- The one-row bias broadcast down the block's rows, at `(r, j)`: the row at `j`. -/
theorem bias_row (v : FVec Ideal S1x128 .f32) (r : Fin 5000) (j : Fin 128) :
    broadcastTo S5000x128 (shapeCast S1x128 v shapeCasts_S1x128_S1x128) broadcasts_S1x128_S5000x128 (ix2 r j)
      = v (ix2 (0 : Fin 1) j) := by
  rw [shapeCast_self]
  exact broadcastTo_apply v broadcasts_S1x128_S5000x128 (ix2 r j) (ix2 (0 : Fin 1) j) (fun a => match a with
    | ⟨0, _⟩ => by show (0 : Nat) = if (1 : Nat) = 1 then 0 else _; rw [if_pos rfl]
    | ⟨1, _⟩ => by show j.val = if (128 : Nat) = 1 then 0 else j.val; rw [if_neg (by decide)])

/-- What the body stores, at `(r, j)`, from the four blocks it loads. -/
theorem block_apply (x0 x1 : Vec Ideal S5000x64 .f32) (x2 : Vec Ideal S64x128 .f32) (x3 : Vec Ideal S1x128 .f32)
    (r : Fin 5000) (j : Fin 128) :
    k0_pay1 (F := Ideal) x0 x1 x2 x3 (ix2 r j)
      = (∑ k : Fin 64, (x0 (ix2 r k) + x1 (ix2 r k)) * x2 (ix2 k j)) + x3 (ix2 (0 : Fin 1) j) := by
  unfold k0_pay1
  show matmul dot_S5000x64_S64x128_S5000x128_1_0_0_1_n_n none _ _ _ (ix2 r j) + broadcastTo S5000x128 _ _ (ix2 r j) = _
  rw [matmul_block, bias_row, shapeCast_self, shapeCast_self]
  rfl

/-- The same at any index of the block. -/
theorem block_apply' (x0 x1 : Vec Ideal S5000x64 .f32) (x2 : Vec Ideal S64x128 .f32) (x3 : Vec Ideal S1x128 .f32)
    (y : S5000x128.Idx) :
    k0_pay1 (F := Ideal) x0 x1 x2 x3 y
      = (∑ k : Fin 64, (x0 (ix2 (y 0) k) + x1 (ix2 (y 0) k)) * x2 (ix2 k (y 1))) + x3 (ix2 (0 : Fin 1) (y 1)) := by
  obtain ⟨r, j, rfl⟩ : ∃ (r : Fin 5000) (j : Fin 128), y = ix2 r j := ⟨y 0, y 1, eq_ix2 y⟩
  exact block_apply x0 x1 x2 x3 r j

end Cert.Proof.KernelBlock

end
-- ==== Proof.KernelValue.lean ====
/-
  The fused kernel's output array, from its twenty blocks.

  Grid point `t` stages rows `5000·t … 5000·t + 4999` of the features and of the aggregate, the whole transposed weight
  and the whole bias row, and writes back rows `5000·t … 5000·t + 4999` of the output. So entry `(r, j)` of the block it
  writes is entry `(5000·t + r, j)` of ONE function of the arrays as the region finds them,
  `∑ₖ (feat[i,k] + h[i,k]) · Wᵀ[k,j] + b[0,j]` (`layerOf`, `point_eq`, `written_eq`); the twenty blocks tile the 100000
  rows (`covered`: row `i` is in block `i / 5000`), so after the run the output array is that function (`final`, `run`).
  The block reads and the per-point equation are stated for ANY four arrays of the right shapes; the arrays the region
  finds are put in only at the end.
-/
import proofs.«423117_j72344429133898_1_alg».proof.Proof.Gen.KernelIdeal.Value
import proofs.«423117_j72344429133898_1_alg».proof.Proof.KernelBlock
import Idealize.ShloMosaic.Lib.Pipeline.Value
import Idealize.ShloMosaic.Lib.ValueIdx

noncomputable section

namespace Cert.Proof.KernelValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- The output as one function of four arrays: `∑ₖ (A[i,k] + H[i,k]) · Wt[k,j] + B[0,j]`. -/
def layerOf (A H : Vec Ideal S100000x64 .f32) (Wt : Vec Ideal S64x128 .f32) (B : Vec Ideal S1x128 .f32) : Vec Ideal S100000x128 .f32 :=
  fun i => (∑ k : Fin 64, (A (ix2 (i 0) k) + H (ix2 (i 0) k)) * Wt (ix2 k (i 1))) + B (ix2 (0 : Fin 1) (i 1))

/-- The printed index maps over the twenty points: the two row-blocked inputs and the output are at block `(t, 0)`, the
    weight and the bias at block `(0, 0)`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `r` of block `t` is row `5000·t + r` of the array. -/
def row (t : Fin cfg0.N) (r : Fin 5000) : Fin 100000 :=
  ⟨5000 * t.val + r.val, by have := lt_of_lt_of_eq t.isLt N_0; have := r.isLt; omega⟩

/-- Window 0's block at point `t` is rows `5000·t …` of its array. -/
theorem rows0 (A : Vec Ideal S100000x64 .f32) (t : Fin cfg0.N) (r : Fin 5000) (k : Fin 64) :
    (((cfg0.win 0).blk t).view.read (Elt Ideal) A : Vec Ideal S5000x64 .f32) (ix2 r k) = A (ix2 (row t r) k) := by
  obtain ⟨e0, e1, -⟩ := index_facts t
  rw [View.read_apply]
  refine congrArg A (funext fun a => Fin.ext ?_)
  match a with
  | ⟨0, _⟩ => show win0_0.index t 0 * 5000 + 1 * r.val = 5000 * t.val + r.val; rw [e0]; omega
  | ⟨1, _⟩ => show win0_0.index t 1 * 64 + 1 * k.val = k.val; rw [e1]; omega

/-- Window 1's block at point `t` is the same rows of its array. -/
theorem rows1 (H : Vec Ideal S100000x64 .f32) (t : Fin cfg0.N) (r : Fin 5000) (k : Fin 64) :
    (((cfg0.win 1).blk t).view.read (Elt Ideal) H : Vec Ideal S5000x64 .f32) (ix2 r k) = H (ix2 (row t r) k) := by
  obtain ⟨-, -, e0, e1, -⟩ := index_facts t
  rw [View.read_apply]
  refine congrArg H (funext fun a => Fin.ext ?_)
  match a with
  | ⟨0, _⟩ => show win0_1.index t 0 * 5000 + 1 * r.val = 5000 * t.val + r.val; rw [e0]; omega
  | ⟨1, _⟩ => show win0_1.index t 1 * 64 + 1 * k.val = k.val; rw [e1]; omega

/-- Window 2's block at every point is its whole array. -/
theorem whole2 (Wt : Vec Ideal S64x128 .f32) (t : Fin cfg0.N) (k : Fin 64) (j : Fin 128) :
    (((cfg0.win 2).blk t).view.read (Elt Ideal) Wt : Vec Ideal S64x128 .f32) (ix2 k j) = Wt (ix2 k j) := by
  obtain ⟨-, -, -, -, e0, e1, -⟩ := index_facts t
  rw [View.read_apply]
  refine congrArg Wt (funext fun a => Fin.ext ?_)
  match a with
  | ⟨0, _⟩ => show win0_2.index t 0 * 64 + 1 * k.val = k.val; rw [e0]; omega
  | ⟨1, _⟩ => show win0_2.index t 1 * 128 + 1 * j.val = j.val; rw [e1]; omega

/-- Window 3's block at every point is its whole one-row array. -/
theorem whole3 (B : Vec Ideal S1x128 .f32) (t : Fin cfg0.N) (j : Fin 128) :
    (((cfg0.win 3).blk t).view.read (Elt Ideal) B : Vec Ideal S1x128 .f32) (ix2 (0 : Fin 1) j) = B (ix2 (0 : Fin 1) j) := by
  obtain ⟨-, -, -, -, -, -, e0, e1, -⟩ := index_facts t
  rw [View.read_apply]
  refine congrArg B (funext fun a => Fin.ext ?_)
  match a with
  | ⟨0, _⟩ => show win0_3.index t 0 * 1 + 1 * 0 = 0; rw [e0]
  | ⟨1, _⟩ => show win0_3.index t 1 * 128 + 1 * j.val = j.val; rw [e1]; omega

/-- The output window's block at point `t` sits at rows `5000·t …` of the output array. -/
theorem out_emb (t : Fin cfg0.N) (r : Fin 5000) (j : Fin 128) :
    (((cfg0.win 4).blk t).view.emb (ix2 r j) : S100000x128.Idx) = ix2 (row t r) j := by
  obtain ⟨-, -, -, -, -, -, -, -, e0, e1⟩ := index_facts t
  funext a
  apply Fin.ext
  match a with
  | ⟨0, _⟩ => show win0_4.index t 0 * 5000 + 1 * r.val = 5000 * t.val + r.val; rw [e0]; omega
  | ⟨1, _⟩ => show win0_4.index t 1 * 128 + 1 * j.val = j.val; rw [e1]; omega

/-- ONE POINT: what the body stores from the four blocks at point `t`, at entry `y` of the block, is `layerOf` of the four
    arrays at the entry of the output array where `y` sits. -/
theorem point_eq (A H : Vec Ideal S100000x64 .f32) (Wt : Vec Ideal S64x128 .f32) (B : Vec Ideal S1x128 .f32)
    (t : Fin cfg0.N) (y : S5000x128.Idx) :
    k0_pay1 (F := Ideal) (((cfg0.win 0).blk t).view.read (Elt Ideal) A) (((cfg0.win 1).blk t).view.read (Elt Ideal) H)
        (((cfg0.win 2).blk t).view.read (Elt Ideal) Wt) (((cfg0.win 3).blk t).view.read (Elt Ideal) B) y
      = layerOf A H Wt B (((cfg0.win 4).blk t).view.emb y) := by
  obtain ⟨r, j, rfl⟩ : ∃ (r : Fin 5000) (j : Fin 128), y = ix2 r j := ⟨y 0, y 1, eq_ix2 y⟩
  rw [out_emb t r j]
  refine (Cert.Proof.KernelBlock.block_apply _ _ _ _ r j).trans ?_
  show _ = (∑ k : Fin 64, (A (ix2 (row t r) k) + H (ix2 (row t r) k)) * Wt (ix2 k j)) + B (ix2 (0 : Fin 1) j)
  rw [whole3 B t j]
  refine congrArg (· + B (ix2 (0 : Fin 1) j)) (Finset.sum_congr rfl fun k _ => ?_)
  rw [rows0 A t r k, rows1 H t r k, whole2 Wt t k j]

/-- The four arrays the region reads, as it finds them, at their literal types. -/
abbrev featA (c : Dev nD) : Vec Ideal S100000x64 .f32 := V m c (Pipeline.arrRef spec0 0)
abbrev aggA (c : Dev nD) : Vec Ideal S100000x64 .f32 := V m c (Pipeline.arrRef spec0 1)
abbrev wtA (c : Dev nD) : Vec Ideal S64x128 .f32 := V m c (Pipeline.arrRef spec0 2)
abbrev biasA (c : Dev nD) : Vec Ideal S1x128 .f32 := V m c (Pipeline.arrRef spec0 3)

/-- The output as `layerOf` of the arrays the region finds. -/
def entryResult (c : Dev nD) : Vec Ideal S100000x128 .f32 :=
  layerOf (featA m c) (aggA m c) (wtA m c) (biasA m c)

/-- WHAT POINT `t` WRITES BACK is block `t` of `entryResult`. -/
theorem written_eq (c : Dev nD) (t : Fin cfg0.N) :
    (dats m 0 c).flushed 4 t = ((cfg0.win 4).blk t).view.read (Elt Ideal) (entryResult m c) := by
  rw [flushed4]
  unfold out0_4
  rw [View.canon_unit_zero zero_off]
  simp only [View.ld_unit_zero (S := S5000x64) zero_off, View.ld_unit_zero (S := S64x128) zero_off, View.ld_unit_zero (S := S1x128) zero_off]
  funext y
  exact point_eq (featA m c) (aggA m c) (wtA m c) (biasA m c) t y

/-- An index of the output array is in point `t`'s block iff its row is among rows `5000·t … 5000·t + 4999`. -/
theorem mem_block (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v6).slice (win0_4.rect t)).set ↔ _
  rw [View.set_slice_whole, Rect.mem_set_unit]
  exact Iff.rfl

/-- Every index of the output array is in some point's block: row `i` is in block `i / 5000`. -/
theorem covered (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, e0, e1⟩ := index_facts t
  refine ⟨t, flush0_4 t, ?_⟩
  rw [mem_block]
  intro a
  match a with
  | ⟨0, _⟩ => show win0_4.index t 0 * 5000 ≤ (i 0).val ∧ (i 0).val < win0_4.index t 0 * 5000 + 5000; rw [e0]; omega
  | ⟨1, _⟩ => show win0_4.index t 1 * 128 ≤ (i 1).val ∧ (i 1).val < win0_4.index t 1 * 128 + 128; rw [e1]; omega

/-- THE OUTPUT ARRAY after the run is `entryResult`. -/
theorem final (c : Dev nD) : (dats m 0 c).arrAt 4 cfg0.N = entryResult m c :=
  (dats m 0 c).arrAt_eq_of_cover 4 (entryResult m c) (fun t _ => written_eq m c t) covered

/-- The run, read: the output array at `entryResult`, the arguments unchanged. -/
theorem run : θ_run defs (onTc (τ := τ) (main (F := Ideal))) ⟨m, fun _ => 0, ρ⟩ fun r => ∀ c : Dev nD,
      r.2.mem ((c : Thread nD τ).loc main_v6) = entryResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.Proof.KernelValue

end
-- ==== Proof.LibIndexWrap.lean ====
/-
  Two facts about 32-bit index words and one-bit masks, stated at any extent.

  A NumPy-style row index `x` into an axis of `n` rows is valid when `-n ≤ x < n` (read signed); a negative one names
  row `x + n`. The wrapped word `if x < 0 then x + n else x` of a valid index lies in `[0, n)`, so both bounds tests of a
  fill-or-drop gather (`0 ≤ y` and `y ≤ n - 1`) pass: `toInt_wrap`, `wrap_inBounds`. The only arithmetic is that
  `x + n` does not wrap around 2³² when `-n ≤ x < 0` and `n < 2³¹`.

  A reduction by `and` of an array of one-bit words that are all `1`, from the initial value `1`, is `1` at every
  result index (the converse of reading `jnp.all` back): `reduce_andi_of_all`.
-/
import Idealize.ShloMosaic.Lib.StableHlo.Predicate
import Idealize.ShloMosaic.Lib.ReduceAll
import Idealize.ShloMosaic.Lib.ValueIdx

namespace Cert.Lib.IndexWrap

open Idealize.ShloMosaic

/-- A left fold by `and` from `1` over words that are all `1` is `1`. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 by decide]
    exact foldl_andi_one f l (fun n hn => h n (List.mem_cons_of_mem _ hn))

/-- A `stablehlo.reduce` by `and`, from an initial value `1`, of an array whose every element is `1`, is `1` at every
    result index, whatever axes it reduces. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ (fun n _ => hx n)

/-- The wrapped word of a valid NumPy-style index into `n` rows, `n < 2³¹`: if `-n ≤ x < n` signed, then
    `if x < 0 then x + n else x` is in `[0, n)` signed. -/
theorem toInt_wrap (n : Nat) (hn : n < 2 ^ 31) (x : BitVec 32) (hlo : -(n : Int) ≤ x.toInt) (hhi : x.toInt < n) :
    0 ≤ (Scalar.select (IntOp.cmpi .slt x 0#32) (IntOp.addi x (BitVec.ofNat 32 n)) x).toInt
    ∧ (Scalar.select (IntOp.cmpi .slt x 0#32) (IntOp.addi x (BitVec.ofNat 32 n)) x).toInt < n := by
  by_cases hneg : x.toInt < 0
  · have hc : IntOp.cmpi .slt x 0#32 = 1#1 := IntOp.cmpi_slt.2 (by simpa using hneg)
    rw [hc, ValueIdx.select_one]
    unfold IntOp.addi
    rw [BitVec.toInt_add, StableHlo.Predicate.toInt_ofNat_small n hn]
    have : (x.toInt + (n : Int)).bmod (2 ^ 32) = x.toInt + n := by
      apply Int.bmod_eq_of_le <;> omega
    rw [this]; omega
  · have hc : ¬ IntOp.cmpi .slt x 0#32 = 1#1 := fun h => hneg (by simpa using IntOp.cmpi_slt.1 h)
    rw [ValueIdx.eq_zero_of_ne_one hc, ValueIdx.select_zero]
    omega

/-- Both bounds tests of a fill-or-drop gather pass at the wrapped word of a valid index: `0 ≤ y` and `y ≤ n - 1`. -/
theorem wrap_inBounds (n : Nat) (hn0 : 0 < n) (hn : n < 2 ^ 31) (x : BitVec 32) (hlo : -(n : Int) ≤ x.toInt) (hhi : x.toInt < n) :
    IntOp.andi
      (IntOp.cmpi .sge (Scalar.select (IntOp.cmpi .slt x 0#32) (IntOp.addi x (BitVec.ofNat 32 n)) x) 0#32)
      (IntOp.cmpi .sle (Scalar.select (IntOp.cmpi .slt x 0#32) (IntOp.addi x (BitVec.ofNat 32 n)) x) (BitVec.ofNat 32 (n - 1)))
      = 1#1 := by
  obtain ⟨h0, h1⟩ := toInt_wrap n hn x hlo hhi
  rw [IntOp.andi_eq_one, IntOp.cmpi_sge, IntOp.cmpi_sle, StableHlo.Predicate.toInt_ofNat_small (n - 1) (by omega)]
  refine ⟨by simpa using h0, ?_⟩
  omega

end Cert.Lib.IndexWrap
-- ==== Proof.KernelHost.lean ====
/-
  What the host operations in front of the fused kernel leave in the three arrays it reads besides the features.

  The gather. Each edge `e` names a source row by a signed word `src[e]`; a negative word names row `src[e] + 100000`
  (`wrapped`). The kernel's gather is fill-or-drop: it tests `0 ≤ y ≤ 99999` on the wrapped word `y` (`inBounds`), gathers
  the row, and keeps it where the test passes, a fill pattern elsewhere (`taken`). When every `src[e]` is a valid index,
  `-100000 ≤ src[e] < 100000`, the wrapped word is in `[0, 100000)`, the test passes at every edge, and `taken` is the
  plain gather of the wrapped rows: `taken_eq`.

  The aggregate `h` is the scatter-add of those rows at the destination words into zeros (`aggregated`).
-/
import proofs.«423117_j72344429133898_1_alg».proof.Proof.Gen.KernelIdeal.Frame
import proofs.«423117_j72344429133898_1_alg».proof.Proof.LibIndexWrap
import Idealize.ShloMosaic.Lib.Pipeline.Value
import Idealize.ShloMosaic.Lib.ValueIdx
import Idealize.ShloMosaic.PureOps.Ideal

noncomputable section

namespace Cert.Proof.KernelHost

open Cert.KernelIdeal Cert.KernelIdeal.Gen
open Idealize.ShloMosaic Idealize.ShloMosaic.TcCoe Idealize.SL.Sem Idealize.ShloMosaic.ValueIdx

/-- The source words with the negative ones moved up by the row count, as a column of start indices. -/
def wrapped (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Per edge: the wrapped word is a row of the feature array, `0 ≤ y` and `y ≤ 99999`. -/
def inBounds (src : IVec S1600000 32) : IVec S1600000 1 :=
  Host.reduce IntOp.andi
    (andi (cmpi .sge (wrapped src) (broadcastInDim S1600000x1 ![] bcast_S_S1600000x1 (constantI S_ 32 0#32)))
      (cmpi .sle (wrapped src) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The rows the kernel's host side gathers: row `wrapped src e` of the features where that word is in bounds, a fill
    pattern where it is not. -/
def taken (feat : FVec Ideal S100000x64 .f32) (src : IVec S1600000 32) : FVec Ideal S1600000x64 .f32 :=
  select (broadcastInDim S1600000x64 ![0] bcast_S1600000_S1600000x64_0 (inBounds src))
    (Host.gather gather_S100000x64_S1600000x1_S1600000x64_1_0_n_n_0_1_164 feat (wrapped src))
    (broadcastInDim S1600000x64 ![] bcast_S_S1600000x64 (constant S_ .f32 0x7FC00000#32))

/-- The gathered rows summed into their destination rows, from zeros. -/
def aggregated (feat : FVec Ideal S100000x64 .f32) (src dst : IVec S1600000 32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (taken feat src)

/-- The wrapped column at an edge is the wrap of that edge's word. -/
theorem wrapped_apply (src : IVec S1600000 32) (i : S1600000x1.Idx) :
    wrapped src i = Scalar.select (IntOp.cmpi .slt (src (ix1 (i 0))) 0#32) (IntOp.addi (src (ix1 (i 0))) 100000#32) (src (ix1 (i 0))) := by
  unfold wrapped
  exact broadcastInDim_apply ![0] bcast_S1600000_S1600000x1_0 _ i (ix1 (i 0)) (fun a => match a with
    | ⟨0, _⟩ => by show (i 0).val = if (1600000 : Nat) = 1 then 0 else (i 0).val; rw [if_neg (by decide)])

/-- With every source word a valid index, the bounds test passes at every edge. -/
theorem inBounds_one (src : IVec S1600000 32) (hr : ∀ e, -(100000 : Int) ≤ (src e).toInt ∧ (src e).toInt < 100000)
    (j : S1600000.Idx) : inBounds src j = 1#1 := by
  unfold inBounds
  refine Cert.Lib.IndexWrap.reduce_andi_of_all _ _ _ _ rfl (fun i => ?_) j
  show IntOp.andi (IntOp.cmpi .sge (wrapped src i) 0#32) (IntOp.cmpi .sle (wrapped src i) 99999#32) = 1#1
  rw [wrapped_apply]
  exact Cert.Lib.IndexWrap.wrap_inBounds 100000 (by decide) (by decide) _ (hr _).1 (hr _).2

/-- So the fill never shows: the kernel's host side gathers exactly the wrapped rows. -/
theorem taken_eq (feat : FVec Ideal S100000x64 .f32) (src : IVec S1600000 32)
    (hr : ∀ e, -(100000 : Int) ≤ (src e).toInt ∧ (src e).toInt < 100000) :
    taken feat src = Host.gather gather_S100000x64_S1600000x1_S1600000x64_1_0_n_n_0_1_164 feat (wrapped src) := by
  funext i
  unfold taken
  rw [select_apply]
  have hm : (broadcastInDim S1600000x64 ![0] bcast_S1600000_S1600000x64_0 (inBounds src)) i = 1#1 := by
    unfold broadcastInDim
    exact inBounds_one src hr _
  rw [hm, select_one]

end Cert.Proof.KernelHost

end
-- ==== Proof.Spec.lean ====
/-
  The layer's result as one function of its arrays.

  A node's row is its own features plus the sum `h` of the feature rows of the sources of its incoming edges, put through a
  linear map: entry `(i, j)` of the result is `∑ₖ (x[i,k] + h[i,k]) · w[j,k] + b[j]`, the weight `w` of shape [128, 64] used
  transposed. The aggregated array `h` is an argument here: how it is gathered and scattered is the same on both sides of the
  claim and is never opened.
-/
import Idealize.ShloMosaic.PureOps.Ideal
import Idealize.ShloMosaic.Lib.ValueIdx

noncomputable section

namespace Cert.Proof.Spec

open Idealize.ShloMosaic Idealize.ShloMosaic.ValueIdx

/-- `∑ₖ (x[i,k] + h[i,k]) · w[j,k] + b[j]` over the extended reals, at every node `i` and output feature `j`. -/
def nodeLinear (x h : FVec Ideal ⟨2, ![100000, 64]⟩ .f32) (w : FVec Ideal ⟨2, ![128, 64]⟩ .f32) (b : FVec Ideal ⟨1, ![128]⟩ .f32) :
    FVec Ideal ⟨2, ![100000, 128]⟩ .f32 :=
  fun i => (∑ k : Fin 64, (x (ix2 (i 0) k) + h (ix2 (i 0) k)) * w (ix2 (i 1) k)) + b (ix1 (i 1))

end Cert.Proof.Spec

end
-- ==== Proof.KernelEntry.lean ====
/-
  The arrays the fused kernel reads, as the host operations in front of it leave them, and the kernel's result as the layer's
  function of the launch arrays.

  The features reach the region as launched. The second operand is the aggregate `aggregated feat src dst` of
  Proof/KernelHost.lean: the host operations are the wrap of the source words, the bounds test, the gather, the fill and the
  scatter-add, in that order, and reading the scatter-add's result off them gives that term (`after_h`, for any launch
  contents; a value written through a typed reference and read back through the same reference is the value,
  `ofBuf_toBuf`). The third operand is the weight transposed, the fourth the bias as one row. Read at an entry, the
  transposed weight at `(k, j)` is the weight at `(j, k)` and the bias row at `(0, j)` is the bias at `j`, so the
  kernel's whole-array function of Proof/KernelValue.lean is `nodeLinear` of the launch arrays and that aggregate:
  `entryResult_eq`.
-/
import proofs.«423117_j72344429133898_1_alg».proof.Proof.KernelHost
import proofs.«423117_j72344429133898_1_alg».proof.Proof.KernelValue
import proofs.«423117_j72344429133898_1_alg».proof.Proof.Spec
import Idealize.ShloMosaic.Lib.StableHlo.Run
import Idealize.ShloMosaic.Lib.Pipeline.Value
import Idealize.ShloMosaic.Lib.ValueIdx

noncomputable section

namespace Cert.Proof.KernelEntry

open Cert.KernelIdeal Cert.KernelIdeal.Gen
open Idealize.ShloMosaic Idealize.ShloMosaic.TcCoe Idealize.SL.Sem Idealize.ShloMosaic.ValueIdx
open Cert.Proof.KernelHost

/-- A value stored through a typed reference and read back through it is the value. -/
theorem ofBuf_toBuf {sig : RefSig} {T : BufTy} {Val : EltTy → Type} (x : StableHlo.TRef sig T) (v : T.Contents Val) :
    x.ofBuf (x.toBuf v) = v := by
  obtain ⟨r, h, h2, h3⟩ := x
  subst h
  rfl

set_option maxHeartbeats 4000000 in
/-- The scatter-add's result after the host operations, from any launch contents `X`: the aggregate of `X`'s features,
    source words and destination words. -/
theorem after_h (X : Valuation τ sig (Elt Ideal)) :
    (StableHlo.after (List.flatten [hostOps0, hostOps0_1]) X (Proc.devRef .tc main_v3) : FVec Ideal S100000x64 .f32)
      = aggregated (X (Proc.devRef .tc main_arg0)) (X (Proc.devRef .tc main_arg2)) (X (Proc.devRef .tc main_arg3)) := by
  simp only [hostOps0, hostOps0_1, List.flatten_cons, List.flatten_nil, List.append_nil, List.cons_append, List.nil_append]
  after_results
  simp only [ofBuf_toBuf]
  have hto : ∀ v : (⟨S1600000x64, .f32⟩ : BufTy).Contents (Elt Ideal),
      (StableHlo.TRef.of main_v0 : StableHlo.TRef sig ⟨S1600000x64, .f32⟩).toBuf v = v := fun v => rfl
  have ha0 : ∀ v : (main_arg0 : Ref sig .tc).ty.Contents (Elt Ideal),
      (StableHlo.TRef.of main_arg0 : StableHlo.TRef sig ⟨S100000x64, .f32⟩).ofBuf v = v := fun v => rfl
  have ha2 : ∀ v : (main_arg2 : Ref sig .tc).ty.Contents (Elt Ideal),
      (StableHlo.TRef.of main_arg2 : StableHlo.TRef sig ⟨S1600000, .i32⟩).ofBuf v = v := fun v => rfl
  simp only [hto, ha0, ha2]
  unfold aggregated taken inBounds wrapped
  with_reducible rfl

variable (m : (ℓ : Loc nD τ sig) → Buf (Elt Ideal) ℓ)

/-- The aggregate as the region finds it. -/
theorem entry_h (c : Dev nD) :
    Cert.Proof.KernelValue.aggA m c
      = aggregated (m ((c : Thread nD τ).loc main_arg0)) (m ((c : Thread nD τ).loc main_arg2)) (m ((c : Thread nD τ).loc main_arg3)) :=
  after_h (fun b => m (c, b))

/-- The features as the region finds them: as launched. -/
theorem entry_feat (c : Dev nD) : Cert.Proof.KernelValue.featA m c = m ((c : Thread nD τ).loc main_arg0) :=
  V_main_arg0 m c

/-- The weight as the region finds it: transposed. -/
theorem entry_wt (c : Dev nD) :
    Cert.Proof.KernelValue.wtA m c
      = transpose S64x128 [1, 0] (m ((c : Thread nD τ).loc main_arg4)) transposes_S128x64_S64x128_1_0 := by
  show (V m c main_v4 : FVec Ideal S64x128 .f32) = _
  dsimp only [V]
  simp only [hostOps0, hostOps0_1, List.flatten_cons, List.flatten_nil, List.append_nil, List.cons_append, List.nil_append]
  after_results

/-- The bias as the region finds it: one row. -/
theorem entry_b (c : Dev nD) :
    Cert.Proof.KernelValue.biasA m c
      = shapeCast S1x128 (m ((c : Thread nD τ).loc main_arg5)) shapeCasts_S128_S1x128 := by
  show (V m c main_v5 : FVec Ideal S1x128 .f32) = _
  dsimp only [V]
  simp only [hostOps0, hostOps0_1, List.flatten_cons, List.flatten_nil, List.append_nil, List.cons_append, List.nil_append]
  after_results
  rfl

/-- The transposed weight at `(k, j)` is the weight at `(j, k)`. -/
theorem wt_at (w : FVec Ideal S128x64 .f32) (k : Fin 64) (j : Fin 128) :
    transpose S64x128 [1, 0] w transposes_S128x64_S64x128_1_0 (ix2 k j) = w (ix2 j k) :=
  transpose_apply [1, 0] w transposes_S128x64_S64x128_1_0 (ix2 k j) (ix2 j k) (fun b => match b with
    | ⟨0, _⟩ => rfl
    | ⟨1, _⟩ => rfl)

/-- The bias as a one-row matrix, at `(0, j)`, is the bias at `j`. -/
theorem bias_at (b : FVec Ideal S128 .f32) (j : Fin 128) :
    shapeCast S1x128 b shapeCasts_S128_S1x128 (ix2 (0 : Fin 1) j) = b (ix1 j) :=
  shapeCast_apply b shapeCasts_S128_S1x128 (ix2 (0 : Fin 1) j) (ix1 j) (by
    rw [Shape.rowMajor_val_two, Shape.rowMajor_val_one]; show j.val = 0 * 128 + j.val; omega)

/-- The kernel's function of four arrays, at node `p` and output feature `q`. -/
theorem layerOf_apply (A H : Vec Ideal S100000x64 .f32) (Wt : Vec Ideal S64x128 .f32) (B : Vec Ideal S1x128 .f32)
    (p : Fin 100000) (q : Fin 128) :
    Cert.Proof.KernelValue.layerOf A H Wt B (ix2 p q)
      = (∑ k : Fin 64, (A (ix2 p k) + H (ix2 p k)) * Wt (ix2 k q)) + B (ix2 (0 : Fin 1) q) := rfl

/-- The layer's function, at node `p` and output feature `q`. -/
theorem nodeLinear_apply (x h : FVec Ideal S100000x64 .f32) (w : FVec Ideal S128x64 .f32) (b : FVec Ideal S128 .f32)
    (p : Fin 100000) (q : Fin 128) :
    Cert.Proof.Spec.nodeLinear x h w b (ix2 p q)
      = (∑ k : Fin 64, (x (ix2 p k) + h (ix2 p k)) * w (ix2 q k)) + b (ix1 q) := rfl

/-- The kernel's whole-array function, of the arrays the region finds, is the layer's function of the launch arrays and the
    kernel's aggregate. -/
theorem entryResult_eq (c : Dev nD) :
    Cert.Proof.KernelValue.entryResult m c
      = Cert.Proof.Spec.nodeLinear (m ((c : Thread nD τ).loc main_arg0))
          (aggregated (m ((c : Thread nD τ).loc main_arg0)) (m ((c : Thread nD τ).loc main_arg2)) (m ((c : Thread nD τ).loc main_arg3)))
          (m ((c : Thread nD τ).loc main_arg4)) (m ((c : Thread nD τ).loc main_arg5)) := by
  unfold Cert.Proof.KernelValue.entryResult
  rw [entry_feat, entry_h, entry_wt, entry_b]
  funext i
  obtain ⟨p, q, rfl⟩ : ∃ (p : Fin 100000) (q : Fin 128), i = ix2 p q := ⟨i 0, i 1, eq_ix2 i⟩
  rw [layerOf_apply, nodeLinear_apply, bias_at]
  refine congrArg (· + _) (Finset.sum_congr rfl fun k _ => ?_)
  rw [wt_at]

end Cert.Proof.KernelEntry

end
-- ==== Proof.RefValue.lean ====
/-
  The reference, read at an entry, is the layer's function of its own aggregate.

  The reference adds the aggregate `h` to `1 · feat`, multiplies by the transposed weight and adds the bias broadcast down
  the rows. Read at `(i, j)` through the generated stage lemmas that is
  `∑ₖ (1 · feat[i,k] + h[i,k]) · W[j,k] + b[j]`, and `1 · x = x` on every extended real: `result_eq`.
-/
import proofs.«423117_j72344429133898_1_alg».proof.Proof.Gen.ReferenceIdeal.Read
import proofs.«423117_j72344429133898_1_alg».proof.Proof.Spec
import Idealize.ShloMosaic.Lib.IdealHost

noncomputable section

namespace Cert.Proof.RefValue

open Cert.ReferenceIdeal Cert.ReferenceIdeal.Gen Cert.ReferenceIdeal.Read
open Idealize.ShloMosaic Idealize.ShloMosaic.ValueIdx

/-- The product's left operand at `(i, k)` is row `i`, column `k`. -/
theorem lidx_eq (i : S100000x128.Idx) (k : Fin 64) : lidx_main_v22 i k = ix2 (i 0) k :=
  funext fun a => by match a with | ⟨0, _⟩ => rfl | ⟨1, _⟩ => rfl

/-- Its right operand, the transposed weight at `(k, j)`, is the weight at `(j, k)`. -/
theorem widx_eq (i : S100000x128.Idx) (k : Fin 64) : idx_main_v21 (ridx_main_v22 i k) = ix2 (i 1) k :=
  funext fun a => by match a with | ⟨0, _⟩ => rfl | ⟨1, _⟩ => rfl

/-- The bias broadcast down the rows, at `(i, j)`, is the bias at `j`. -/
theorem bidx_eq (i : S100000x128.Idx) : idx_main_v23 (idx_main_v24 i) = ix1 (i 1) :=
  funext fun a => by match a with | ⟨0, _⟩ => rfl

/-- The reference's result is `nodeLinear` of the features, the reference's own aggregate, the weight and the bias. -/
theorem result_eq (x0 : FVec Ideal S100000x64 .f32) (x2 x3 : IVec S1600000 32) (x4 : FVec Ideal S128x64 .f32) (x5 : FVec Ideal S128 .f32) :
    val_main_v25 (F := Ideal) x0 x2 x3 x4 x5
      = Cert.Proof.Spec.nodeLinear x0 (val_main_v17 (F := Ideal) x0 x2 x3) x4 x5 := by
  funext i
  rw [val_main_v25_apply, val_main_v22_apply, val_main_v24_apply, val_main_v23_apply, bidx_eq]
  unfold Cert.Proof.Spec.nodeLinear
  show (∑ k : Fin 64, _) + _ = (∑ k : Fin 64, _) + _
  congr 1
  refine Finset.sum_congr rfl fun k _ => ?_
  rw [val_main_v20_apply, val_main_v19_apply, val_main_v18_apply, val_main_cst_3_apply, val_main_v21_apply, lidx_eq, widx_eq]
  show (Ideal.ofBits .f32 0x3F800000#32 * _ + _) * _ = _
  rw [Ideal.ofBits_one_f32, one_mul]
  rfl

end Cert.Proof.RefValue

end
-- ==== Proof.Aggregate.lean ====
/-
  The two aggregates are one array when every source word is a valid index.

  The reference gathers row `wrapped src e` of the features for every edge `e`, multiplies it by a weight that is `1`
  everywhere, and scatter-adds the rows at the destination words into zeros. The kernel's host side does the same gather
  and the same scatter-add, without the weight and with a bounds test on the wrapped word in front of the gather; with
  `-100000 ≤ src[e] < 100000` at every edge the test always passes (`taken_eq`), and `1 · x = x` on the extended reals.
  Neither the gather nor the scatter-add is opened: both sides apply the same two operations to the same arrays.
-/
import proofs.«423117_j72344429133898_1_alg».proof.Proof.KernelHost
import proofs.«423117_j72344429133898_1_alg».proof.Proof.Gen.ReferenceIdeal.Read
import Idealize.ShloMosaic.Lib.IdealHost

noncomputable section

namespace Cert.Proof.Aggregate

open Idealize.ShloMosaic Idealize.ShloMosaic.ValueIdx
open Cert.Proof.KernelHost

/-- The reference's weighted rows are the plain gather of the wrapped rows. -/
theorem weighted_eq (feat : FVec Ideal Cert.ReferenceIdeal.S100000x64 .f32) (src : IVec Cert.ReferenceIdeal.S1600000 32) :
    Cert.ReferenceIdeal.Read.val_main_v14 (F := Ideal) feat src
      = Host.gather Cert.KernelIdeal.gather_S100000x64_S1600000x1_S1600000x64_1_0_n_n_0_1_164 feat (wrapped src) := by
  funext i
  rw [Cert.ReferenceIdeal.Read.val_main_v14_apply, Cert.ReferenceIdeal.Read.val_main_v13_apply,
    Cert.ReferenceIdeal.Read.val_main_v5_apply, Cert.ReferenceIdeal.Read.val_main_cst_0_apply]
  show Ideal.ofBits .f32 0x3F800000#32 * _ = _
  rw [Ideal.ofBits_one_f32, one_mul]
  rfl

/-- With every source word a valid index, the kernel's aggregate is the reference's. -/
theorem aggregated_eq (feat : FVec Ideal Cert.ReferenceIdeal.S100000x64 .f32) (src dst : IVec Cert.ReferenceIdeal.S1600000 32)
    (hr : ∀ e, -(100000 : Int) ≤ (src e).toInt ∧ (src e).toInt < 100000) :
    aggregated feat src dst = Cert.ReferenceIdeal.Read.val_main_v17 (F := Ideal) feat src dst := by
  unfold aggregated Cert.ReferenceIdeal.Read.val_main_v17
  rw [taken_eq feat src hr, weighted_eq]
  rfl

end Cert.Proof.Aggregate

end
-- ==== Proof.lean ====
/-
  A message-passing layer over a graph of 100000 nodes and 1600000 edges: each node's features plus the sum of the features
  of the sources of its incoming edges, through a linear map,

      h[d, ·]   = ∑ over edges e with dst[e] = d of feat[src[e], ·]
      out[i, j] = ∑ₖ (feat[i, k] + h[i, k]) · W[j, k] + b[j].

  Both programs gather the source rows and scatter-add them at the destination words on the host; the kernel then does the
  addition and the linear map in one fused kernel over twenty blocks of 5000 rows, the reference on the host, with a weight
  of ones on the gathered rows and `1 · feat` in place of `feat`. Over the extended reals `1 · x = x`, a matrix product
  accumulated into zeros is the host's product, the changes of float format are the identity, and the blocks tile the rows,
  so the two results are one function, `nodeLinear` of the features, the aggregate, the weight and the bias
  (Proof/Spec.lean), PROVIDED the two aggregates agree.

  They agree where every source word is a valid row index, `-100000 ≤ src[e] < 100000` (a negative word counts from the
  end). There the wrapped word is in `[0, 100000)`. Outside that range the reference's gather clamps the index to a row,
  while the kernel's gather is fill-or-drop: it tests the wrapped word against the bounds and puts a not-a-number pattern,
  which reads as `-∞`, in the rows that fail. The claim is stated under that range and the finiteness of the float inputs;
  the finiteness is not used. The destination words are unconstrained: the scatter-add is the same operation of the same
  arrays on both sides and is never opened.

  The modules: Proof/LibIndexWrap.lean (the wrapped word of a valid index is in bounds; an `and`-reduction of ones),
  Proof/Domain.lean (the range, read off the precondition), Proof/KernelHost.lean and Proof/KernelEntry.lean (the kernel's host
  side), Proof/KernelBlock.lean and Proof/KernelValue.lean (one grid point, then the output array from its blocks),
  Proof/RefValue.lean (the reference read at an entry), Proof/Aggregate.lean (the two aggregates are one).
-/
import proofs.«423117_j72344429133898_1_alg».proof.Defs
import proofs.«423117_j72344429133898_1_alg».proof.Proof.Gen.Kernel
import proofs.«423117_j72344429133898_1_alg».proof.Proof.Gen.Kernel.Skeleton
import proofs.«423117_j72344429133898_1_alg».proof.Proof.Gen.Kernel.Launch
import proofs.«423117_j72344429133898_1_alg».proof.Proof.Gen.Kernel.Points
import proofs.«423117_j72344429133898_1_alg».proof.Proof.Gen.Kernel.Frame
import proofs.«423117_j72344429133898_1_alg».proof.Proof.Gen.KernelIdeal
import proofs.«423117_j72344429133898_1_alg».proof.Proof.Gen.KernelIdeal.Skeleton
import proofs.«423117_j72344429133898_1_alg».proof.Proof.Gen.KernelIdeal.Launch
import proofs.«423117_j72344429133898_1_alg».proof.Proof.Gen.KernelIdeal.Points
import proofs.«423117_j72344429133898_1_alg».proof.Proof.Gen.KernelIdeal.Frame
import proofs.«423117_j72344429133898_1_alg».proof.Proof.Gen.ReferenceIdeal
import proofs.«423117_j72344429133898_1_alg».proof.Proof.Gen.Pre_finite_inputs
import proofs.«423117_j72344429133898_1_alg».proof.Proof.Gen.KernelIdeal.Value
import proofs.«423117_j72344429133898_1_alg».proof.Proof.Gen.ReferenceIdeal.Run
import proofs.«423117_j72344429133898_1_alg».proof.Proof.Gen.ReferenceIdeal.Read
import proofs.«423117_j72344429133898_1_alg».proof.Proof.Domain
import proofs.«423117_j72344429133898_1_alg».proof.Proof.KernelValue
import proofs.«423117_j72344429133898_1_alg».proof.Proof.KernelEntry
import proofs.«423117_j72344429133898_1_alg».proof.Proof.RefValue
import proofs.«423117_j72344429133898_1_alg».proof.Proof.Aggregate
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the output at `nodeLinear` of the features, the aggregate, the weight and the bias: the kernel's
    array from its twenty blocks, the reference's from its stages, the two aggregates one under the range of the source
    words. -/
theorem algebraic : Cert.algebraic_KernelIdeal_ReferenceIdeal := by
  intro m ρ m' ρ' hpre hagree
  refine ⟨fun c => Cert.Proof.KernelValue.entryResult m c, Cert.Proof.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, -, a2, a3, a4, a5⟩ := hagree c
  show _ = Cert.Proof.KernelValue.entryResult m c
  rw [a0, a2, a3, a4, a5, Cert.ReferenceIdeal.Read.val_main_v25_eq, Cert.Proof.RefValue.result_eq,
    Cert.Proof.KernelEntry.entryResult_eq,
    Cert.Proof.Aggregate.aggregated_eq _ _ _ (Cert.Proof.Domain.src_range _ _ _ _ _ _ (hpre c))]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
